-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S1x128 : Shape := ⟨2, ![1, 128]⟩
abbrev S50000x64 : Shape := ⟨2, ![50000, 64]⟩
abbrev S5000x64 : Shape := ⟨2, ![5000, 64]⟩
abbrev S1x64 : Shape := ⟨2, ![1, 64]⟩
abbrev S1x50000x64 : Shape := ⟨3, ![1, 50000, 64]⟩

abbrev nBuf : Space → Nat
  | .hbm => 97
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x128, .f32⟩
  | .hbm, ⟨88, _⟩ => ⟨S_, .f32⟩
  | .hbm, ⟨89, _⟩ => ⟨S50000x128, .f32⟩
  | .hbm, ⟨90, _⟩ => ⟨S800000x1, .i32⟩
  | .hbm, ⟨91, _⟩ => ⟨S50000x128, .f32⟩
  | .hbm, ⟨92, _⟩ => ⟨S50000x1, .f32⟩
  | .hbm, ⟨93, _⟩ => ⟨S50000x128, .f32⟩
  | .hbm, ⟨94, _⟩ => ⟨S50000x128, .f32⟩
  | .hbm, ⟨95, _⟩ => ⟨S50000x64, .f32⟩
  | .hbm, ⟨96, _⟩ => ⟨S1x50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x64, .f32⟩
  | .local _ .vmem, ⟨19, _⟩ => ⟨S64, .f32⟩
  | .local _ .vmem, ⟨20, _⟩ => ⟨S128x64, .f32⟩
  | .local _ .vmem, ⟨21, _⟩ => ⟨S64, .f32⟩
  | .local _ .vmem, ⟨22, _⟩ => ⟨S5000x64, .f32⟩
  | .local _ .vmem, ⟨23, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S50000x64_S1x50000x64_1_2 : S50000x64.BroadcastsInDim S1x50000x64 (![1, 2] : Fin 2 → Fin S1x50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v34) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v69) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩
abbrev S1x50000x64 : Shape := ⟨3, ![1, 50000, 64]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S128x64, .f32⟩
  | 9 => ⟨S64, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S50000x1, .f32⟩
  | 37 => ⟨S50000x128, .f32⟩
  | 38 => ⟨S50000x128, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S50000x1, .f32⟩
  | 53 => ⟨S50000x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S50000x1, .f32⟩
  | 63 => ⟨S50000x128, .f32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S50000x1, .f32⟩
  | 79 => ⟨S50000x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S50000x1, .f32⟩
  | 96 => ⟨S50000x128, .f32⟩
  | 97 => ⟨S50000x128, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S50000x1, .f32⟩
  | 112 => ⟨S50000x128, .f32⟩
  | 113 => ⟨S50000x128, .f32⟩
  | 114 => ⟨S50000x64, .f32⟩
  | 115 => ⟨S1x64, .f32⟩
  | 116 => ⟨S50000x64, .f32⟩
  | 117 => ⟨S50000x64, .f32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S_, .f32⟩
  | 126 => ⟨S50000x64, .f32⟩
  | 127 => ⟨S50000x64, .f32⟩
  | _ => ⟨S50000x128, .f32⟩

abbrev hbmTy0_1 (i : Nat) : BufTy := match i % 128 with
  | 0 => ⟨S50000x64, .f32⟩
  | 1 => ⟨S1x50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call0_cst : Ref sig .tc := ⟨.hbm, 59, rfl⟩
abbrev main_call0_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call1_cst : Ref sig .tc := ⟨.hbm, 92, rfl⟩
abbrev main_call1_v0 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_15 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_16 : Ref sig .tc := ⟨.hbm, 122, rfl⟩
abbrev main_v90 : Ref sig .tc := ⟨.hbm, 123, rfl⟩
abbrev main_v91 : Ref sig .tc := ⟨.hbm, 124, rfl⟩
abbrev main_cst_17 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x64_S1x50000x64_1_2 : S50000x64.BroadcastsInDim S1x50000x64 (![1, 2] : Fin 2 → Fin S1x50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  What the three layers compute, at the extended reals.

  The irregular part of a layer (scale each node's row by its out-degree normaliser, gather the rows of the edges'
  sources, sum them at the edges' destinations, scale by the in-degree normaliser) is carried as ONE function `agg`
  of the node features and the edge list: both programs apply it, so it is never opened.

  The regular part is row-wise. For a row `r` of aggregated features, weights `W` and bias `b`, the affine image at
  column `q` is `dense r W b q = ∑ₖ r k · W(k, q) + b q`. Then
    layer 0:  max (dense r W₁ b₁ q) 0
    layer 1:  max (0.6 · h(p, q) + 0.4 · dense r W₂ b₂ q) 0
    layer 2:  0.6 · dense (h p) S s q + 0.4 · dense r W₃ b₃ q
  where 0.6 and 0.4 stand for the values of the two f32 words both programs carry. The layers are stated for any
  number of rows, so that the same function serves a block of rows and the whole array, and reading a block of rows
  of a layer is the layer of the blocks (`layer_rows`).
-/
import proofs.«158194_j45294725104222_1_alg».proof.Proof.Gen.ReferenceIdeal
import Idealize.ShloMosaic.PureOps.Ideal
import Idealize.ShloMosaic.Lib.ValueIdx

noncomputable section

namespace Cert.Spec

open Idealize.ShloMosaic Idealize.ShloMosaic.ValueIdx Cert.ReferenceIdeal Cert.ReferenceIdeal.Gen

/-! ## The shared irregular part -/

abbrev Edges : Type := IVec S2x800000 32
abbrev Ends : Type := IVec S800000 32
abbrev Deg : Type := FVec Ideal S50000 .f32
abbrev Feat : Type := FVec Ideal S50000x128 .f32

/-- The edges' sources: row 0 of the edge list. -/
def srcOf (e : Edges) : Ends :=
  shapeCast _ (extractStridedSlice S1x800000 ![0, 0] e slices_S2x800000_S1x800000_0_0) shapeCasts_S1x800000_S800000
/-- The edges' destinations: row 1 of the edge list. -/
def dstOf (e : Edges) : Ends :=
  shapeCast _ (extractStridedSlice S1x800000 ![1, 0] e slices_S2x800000_S1x800000_1_0) shapeCasts_S1x800000_S800000

/-- How many edges end (start) at each node: ones summed at the ends. -/
def degree (ends : Ends) : Deg :=
  Host.scatterAdd scatter_S50000_S800000x1_S800000_n_0_0_1
    (broadcastInDim S50000 ![] bcast_S_S50000 (constant S_ .f32 0x00000000#32))
    (broadcastInDim S800000x1 ![0] bcast_S800000_S800000x1_0 ends)
    (broadcastInDim S800000 ![] bcast_S_S800000 (constant S_ .f32 0x3F800000#32))
/-- The normaliser `max(degree, 1) ^ (-1/2)`. -/
def norm (ends : Ends) : Deg :=
  Host.powf (maximumf (degree ends) (broadcastInDim S50000 ![] bcast_S_S50000 (constant S_ .f32 0x3F800000#32)))
    (broadcastInDim S50000 ![] bcast_S_S50000 (constant S_ .f32 0xBF000000#32))
/-- A per-node number along the 128 lanes. -/
def lanes (d : Deg) : Feat :=
  broadcastInDim S50000x128 ![0, 1] bcast_S50000x1_S50000x128_0_1 (broadcastInDim S50000x1 ![0] bcast_S50000_S50000x1_0 d)
/-- A negative node number counted from the end. -/
def wrap (s : Ends) : Ends :=
  select (cmpi .slt s (broadcastInDim S800000 ![] bcast_S_S800000 (constantI S_ 32 0#32)))
    (addi s (broadcastInDim S800000 ![] bcast_S_S800000 (constantI S_ 32 50000#32))) s

/-- One layer's aggregation over given ends and normalisers: rows scaled by `no`, gathered at the sources `s`, summed at
    the destinations `d`, scaled by `ni`. -/
def aggCore (h : Feat) (s d : Ends) (no ni : Deg) : Feat :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d)
      (Host.gather gather_S50000x128_S800000x1_S800000x128_1_0_n_n_0_1_1128 (mulf h (lanes no))
        (broadcastInDim S800000x1 ![0] bcast_S800000_S800000x1_0 (wrap s))))
    (lanes ni)

/-- One layer's aggregation from the edge list: the out-degree normaliser at the sources' side, the in-degree
    normaliser at the destinations' side. -/
def agg (h : Feat) (e : Edges) : Feat :=
  aggCore h (srcOf e) (dstOf e) (norm (srcOf e)) (norm (dstOf e))

/-! ## The regular part, row by row -/

/-- The zero word's value. -/
abbrev z : Ideal .f32 := Ideal.ofBits .f32 0x00000000#32
/-- The value of the word both programs carry for 0.6. -/
abbrev c6 : Ideal .f32 := Ideal.ofBits .f32 0x3F19999A#32
/-- The value of the word both programs carry for 0.4. -/
abbrev c4 : Ideal .f32 := Ideal.ofBits .f32 0x3ECCCCCD#32

/-- The affine image of a row at column `q`. -/
def dense {N : Nat} (r : Fin 128 → Ideal .f32) (W : FVec Ideal ⟨2, ![128, N]⟩ .f32) (b : FVec Ideal ⟨1, ![N]⟩ .f32) (q : Fin N) :
    Ideal .f32 :=
  (∑ k : Fin 128, r k * W (ix2 k q)) + b (ix1 q)

/-- Row `p` of a matrix with 128 columns. -/
abbrev rowOf {M : Nat} (x : FVec Ideal ⟨2, ![M, 128]⟩ .f32) (p : Fin M) : Fin 128 → Ideal .f32 := fun k => x (ix2 p k)

def layer0 {M : Nat} (x : FVec Ideal ⟨2, ![M, 128]⟩ .f32) (W : FVec Ideal ⟨2, ![128, 128]⟩ .f32) (b : FVec Ideal ⟨1, ![128]⟩ .f32) :
    FVec Ideal ⟨2, ![M, 128]⟩ .f32 :=
  fun i => max (dense (rowOf x (i 0)) W b (i 1)) z

def layer1 {M : Nat} (h x : FVec Ideal ⟨2, ![M, 128]⟩ .f32) (W : FVec Ideal ⟨2, ![128, 128]⟩ .f32) (b : FVec Ideal ⟨1, ![128]⟩ .f32) :
    FVec Ideal ⟨2, ![M, 128]⟩ .f32 :=
  fun i => max (c6 * h (ix2 (i 0) (i 1)) + c4 * dense (rowOf x (i 0)) W b (i 1)) z

def layer2 {M : Nat} (h x : FVec Ideal ⟨2, ![M, 128]⟩ .f32) (W : FVec Ideal ⟨2, ![128, 64]⟩ .f32) (b : FVec Ideal ⟨1, ![64]⟩ .f32)
    (S : FVec Ideal ⟨2, ![128, 64]⟩ .f32) (s : FVec Ideal ⟨1, ![64]⟩ .f32) : FVec Ideal ⟨2, ![M, 64]⟩ .f32 :=
  fun i => c6 * dense (rowOf h (i 0)) S s (i 1) + c4 * dense (rowOf x (i 0)) W b (i 1)

theorem layer0_apply {M : Nat} (x : FVec Ideal ⟨2, ![M, 128]⟩ .f32) (W b) (p : Fin M) (q : Fin 128) :
    layer0 x W b (ix2 p q) = max (dense (rowOf x p) W b q) z := rfl
theorem layer1_apply {M : Nat} (h x : FVec Ideal ⟨2, ![M, 128]⟩ .f32) (W b) (p : Fin M) (q : Fin 128) :
    layer1 h x W b (ix2 p q) = max (c6 * h (ix2 p q) + c4 * dense (rowOf x p) W b q) z := rfl
theorem layer2_apply {M : Nat} (h x : FVec Ideal ⟨2, ![M, 128]⟩ .f32) (W b S s) (p : Fin M) (q : Fin 64) :
    layer2 h x W b S s (ix2 p q) = c6 * dense (rowOf h p) S s q + c4 * dense (rowOf x p) W b q := rfl

/-! ## The layers are row-wise: an element only sees its own row of the features, its own column of the weights -/

theorem dense_congr {N N' : Nat} (r r' : Fin 128 → Ideal .f32) (W : FVec Ideal ⟨2, ![128, N]⟩ .f32) (W' : FVec Ideal ⟨2, ![128, N']⟩ .f32)
    (b : FVec Ideal ⟨1, ![N]⟩ .f32) (b' : FVec Ideal ⟨1, ![N']⟩ .f32) (q : Fin N) (q' : Fin N')
    (hr : ∀ k, r' k = r k) (hW : ∀ k, W' (ix2 k q') = W (ix2 k q)) (hb : b' (ix1 q') = b (ix1 q)) :
    dense r' W' b' q' = dense r W b q := by
  unfold dense
  rw [hb]
  exact congrArg (· + b (ix1 q)) (Finset.sum_congr rfl fun k _ => by rw [hr k, hW k])

theorem layer0_rows {M M' : Nat} (X : FVec Ideal ⟨2, ![M, 128]⟩ .f32) (B : FVec Ideal ⟨2, ![M', 128]⟩ .f32)
    (W W' : FVec Ideal ⟨2, ![128, 128]⟩ .f32) (b b' : FVec Ideal ⟨1, ![128]⟩ .f32) (p : Fin M) (p' : Fin M') (q q' : Fin 128)
    (hB : ∀ k, B (ix2 p' k) = X (ix2 p k)) (hW : ∀ k, W' (ix2 k q') = W (ix2 k q)) (hb : b' (ix1 q') = b (ix1 q)) :
    layer0 B W' b' (ix2 p' q') = layer0 X W b (ix2 p q) := by
  rw [layer0_apply, layer0_apply, dense_congr (rowOf X p) (rowOf B p') W W' b b' q q' hB hW hb]

theorem layer1_rows {M M' : Nat} (H X : FVec Ideal ⟨2, ![M, 128]⟩ .f32) (H' B : FVec Ideal ⟨2, ![M', 128]⟩ .f32)
    (W W' : FVec Ideal ⟨2, ![128, 128]⟩ .f32) (b b' : FVec Ideal ⟨1, ![128]⟩ .f32) (p : Fin M) (p' : Fin M') (q q' : Fin 128)
    (hH : H' (ix2 p' q') = H (ix2 p q))
    (hB : ∀ k, B (ix2 p' k) = X (ix2 p k)) (hW : ∀ k, W' (ix2 k q') = W (ix2 k q)) (hb : b' (ix1 q') = b (ix1 q)) :
    layer1 H' B W' b' (ix2 p' q') = layer1 H X W b (ix2 p q) := by
  rw [layer1_apply, layer1_apply, dense_congr (rowOf X p) (rowOf B p') W W' b b' q q' hB hW hb, hH]

theorem layer2_rows {M M' : Nat} (H X : FVec Ideal ⟨2, ![M, 128]⟩ .f32) (H' B : FVec Ideal ⟨2, ![M', 128]⟩ .f32)
    (W W' : FVec Ideal ⟨2, ![128, 64]⟩ .f32) (b b' : FVec Ideal ⟨1, ![64]⟩ .f32) (S S' : FVec Ideal ⟨2, ![128, 64]⟩ .f32)
    (s s' : FVec Ideal ⟨1, ![64]⟩ .f32) (p : Fin M) (p' : Fin M') (q q' : Fin 64)
    (hH : ∀ k, H' (ix2 p' k) = H (ix2 p k))
    (hB : ∀ k, B (ix2 p' k) = X (ix2 p k)) (hW : ∀ k, W' (ix2 k q') = W (ix2 k q)) (hb : b' (ix1 q') = b (ix1 q))
    (hS : ∀ k, S' (ix2 k q') = S (ix2 k q)) (hs : s' (ix1 q') = s (ix1 q)) :
    layer2 H' B W' b' S' s' (ix2 p' q') = layer2 H X W b S s (ix2 p q) := by
  rw [layer2_apply, layer2_apply, dense_congr (rowOf X p) (rowOf B p') W W' b b' q q' hB hW hb,
    dense_congr (rowOf H p) (rowOf H' p') S S' s s' q q' hH hS hs]

/-- The whole result: the three layers over the shared aggregation, with a leading axis of size one. -/
def out (x : Feat) (e : Edges) (W1 : FVec Ideal S128x128 .f32) (b1 : FVec Ideal S128 .f32) (W2 : FVec Ideal S128x128 .f32)
    (b2 : FVec Ideal S128 .f32) (W3 : FVec Ideal S128x64 .f32) (b3 : FVec Ideal S64 .f32) (S : FVec Ideal S128x64 .f32)
    (s : FVec Ideal S64 .f32) : FVec Ideal S1x50000x64 .f32 :=
  let h1 : Feat := layer0 (M := 50000) (agg x e) W1 b1
  let h2 : Feat := layer1 (M := 50000) h1 (agg h1 e) W2 b2
  broadcastInDim S1x50000x64 ![1, 2] bcast_S50000x64_S1x50000x64_1_2 (layer2 (M := 50000) h2 (agg h2 e) W3 b3 S s)

end Cert.Spec

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.KPay.lean ====
/-
  The value each kernel body stores, at an element: the specification's layer of the blocks the body loads.

  At the extended reals rounding the operands to bf16 is the identity, a matrix product into the zero word is the
  plain sum over the contracted coordinate, and the bias `[N]`, cast to `[1, N]` and broadcast down the rows, is read
  at `(p, q)` as the bias at `q`. What is left of each body is the layer's row formula.
-/
import proofs.«158194_j45294725104222_1_alg».proof.Proof.Gen.KernelIdeal.Skeleton
import proofs.«158194_j45294725104222_1_alg».proof.Proof.Spec
import proofs.«158194_j45294725104222_1_alg».proof.Proof.LibRowwise
import Idealize.ShloMosaic.Lib.ValueLayout

noncomputable section

namespace Cert.KernelIdeal.Body

open Idealize.ShloMosaic Idealize.ShloMosaic.ValueIdx Cert.KernelIdeal Cert.KernelIdeal.Gen

/-- The product record of the two 128-column layers is the plain one. -/
theorem dot128_plain : dot_S5000x128_S128x128_S5000x128_1_0_0_1_n_n = DotDims.plain 5000 128 128 :=
  Cert.Lib.Rowwise.eq_plain _ rfl rfl rfl rfl rfl rfl
/-- The product record of the 64-column layer is the plain one. -/
theorem dot64_plain : dot_S5000x128_S128x64_S5000x64_1_0_0_1_n_n = DotDims.plain 5000 128 64 :=
  Cert.Lib.Rowwise.eq_plain _ rfl rfl rfl rfl rfl rfl

/-- The affine part of a body at `(p, q)`: the product of the rounded block with the rounded weights into zero, plus
    the bias along the rows, is the specification's `dense` of row `p`. -/
theorem affine128 (x : Vec Ideal S5000x128 .f32) (W : Vec Ideal S128x128 .f32) (b : Vec Ideal S128 .f32) (p : Fin 5000) (q : Fin 128) :
    addf (matmul dot_S5000x128_S128x128_S5000x128_1_0_0_1_n_n none
        (truncf .bf16 (shapeCast S5000x128 x shapeCasts_S5000x128_S5000x128) bitsLt_bf16_f32) (truncf .bf16 W bitsLt_bf16_f32)
        (constant S5000x128 .f32 0x00000000#32))
      (broadcastTo S5000x128 (shapeCast S1x128 b shapeCasts_S128_S1x128) broadcasts_S1x128_S5000x128) (ix2 p q)
    = Cert.Spec.dense (Cert.Spec.rowOf (M := 5000) x p) W b q := by
  rw [addf_apply, dot128_plain]
  refine (congrArg₂ (· + ·) (Cert.Lib.Rowwise.plain_matmul_zero_apply (M := 5000) (K := 128) (N := 128) none _ _ p q)
    ((broadcastTo_1b_ab_apply _ _ p q).trans (shapeCast_a_1a_apply _ _ 0 q))).trans ?_
  unfold Cert.Spec.dense Cert.Spec.rowOf
  refine congrArg (· + b (ix1 q)) (Finset.sum_congr rfl fun k _ => ?_)
  rw [truncf_apply, truncf_apply, shapeCast_self]

/-- The same for the 64-column weights. -/
theorem affine64 (x : Vec Ideal S5000x128 .f32) (W : Vec Ideal S128x64 .f32) (b : Vec Ideal S64 .f32) (p : Fin 5000) (q : Fin 64) :
    addf (matmul dot_S5000x128_S128x64_S5000x64_1_0_0_1_n_n none
        (truncf .bf16 (shapeCast S5000x128 x shapeCasts_S5000x128_S5000x128) bitsLt_bf16_f32) (truncf .bf16 W bitsLt_bf16_f32)
        (constant S5000x64 .f32 0x00000000#32))
      (broadcastTo S5000x64 (shapeCast S1x64 b shapeCasts_S64_S1x64) broadcasts_S1x64_S5000x64) (ix2 p q)
    = Cert.Spec.dense (Cert.Spec.rowOf (M := 5000) x p) W b q := by
  rw [addf_apply, dot64_plain]
  refine (congrArg₂ (· + ·) (Cert.Lib.Rowwise.plain_matmul_zero_apply (M := 5000) (K := 128) (N := 64) none _ _ p q)
    ((broadcastTo_1b_ab_apply _ _ p q).trans (shapeCast_a_1a_apply _ _ 0 q))).trans ?_
  unfold Cert.Spec.dense Cert.Spec.rowOf
  refine congrArg (· + b (ix1 q)) (Finset.sum_congr rfl fun k _ => ?_)
  rw [truncf_apply, truncf_apply, shapeCast_self]

/-- Layer 0's store: `max (dense …) 0`. -/
theorem pay0_eq (x : Vec Ideal S5000x128 .f32) (W : Vec Ideal S128x128 .f32) (b : Vec Ideal S128 .f32) :
    k0_pay1 (F := Ideal) x W b = Cert.Spec.layer0 (M := 5000) x W b := by
  funext j
  obtain ⟨p, q, rfl⟩ : ∃ (p : Fin 5000) (q : Fin 128), j = ix2 p q := ⟨j 0, j 1, eq_ix2 j⟩
  rw [Cert.Spec.layer0_apply]
  unfold k0_pay1
  rw [maximumf_apply, affine128]
  rfl

/-- Layer 1's store: `max (0.6 · h + 0.4 · dense …) 0`; the body loads the aggregated block first and the residual
    block fourth. -/
theorem pay1_eq (x : Vec Ideal S5000x128 .f32) (W : Vec Ideal S128x128 .f32) (b : Vec Ideal S128 .f32) (h : Vec Ideal S5000x128 .f32) :
    k1_pay1 (F := Ideal) x W b h = Cert.Spec.layer1 (M := 5000) h x W b := by
  funext j
  obtain ⟨p, q, rfl⟩ : ∃ (p : Fin 5000) (q : Fin 128), j = ix2 p q := ⟨j 0, j 1, eq_ix2 j⟩
  rw [Cert.Spec.layer1_apply]
  unfold k1_pay1
  rw [maximumf_apply, addf_apply, mulf_apply, mulf_apply, affine128, shapeCast_self]
  rfl

/-- Layer 2's store: `0.6 · dense (h p) S s + 0.4 · dense r W b`. -/
theorem pay2_eq (x : Vec Ideal S5000x128 .f32) (W : Vec Ideal S128x64 .f32) (b : Vec Ideal S64 .f32) (h : Vec Ideal S5000x128 .f32)
    (S : Vec Ideal S128x64 .f32) (s : Vec Ideal S64 .f32) :
    k2_pay1 (F := Ideal) x W b h S s = Cert.Spec.layer2 (M := 5000) h x W b S s := by
  funext j
  obtain ⟨p, q, rfl⟩ : ∃ (p : Fin 5000) (q : Fin 64), j = ix2 p q := ⟨j 0, j 1, eq_ix2 j⟩
  rw [Cert.Spec.layer2_apply]
  unfold k2_pay1
  rw [addf_apply, mulf_apply, mulf_apply, affine64, affine64]
  rfl

end Cert.KernelIdeal.Body

end
-- ==== Proof.KRegion0.lean ====
/-
  Layer 0's pallas_call, from blocks to the array.

  The grid has ten points; point `t` reads rows `5000·t … 5000·t + 4999` of the aggregated features, the whole weight
  matrix and the whole bias, and writes back the same rows of the result. The layer is row-wise, so what point `t`
  writes back is block `t` of the layer of the whole array, and the ten blocks tile the 50000 rows: the result
  array ends holding the layer of the arrays the call was entered with.
-/
import proofs.«158194_j45294725104222_1_alg».proof.Proof.Gen.KernelIdeal.Frame
import proofs.«158194_j45294725104222_1_alg».proof.Proof.KPay
import Idealize.ShloMosaic.Lib.Pipeline.Value

set_option maxRecDepth 16384

noncomputable section

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The layer of the arrays the call is entered with. -/
abbrev G (c : Dev nD) : FVec Ideal S50000x128 .f32 :=
  Cert.Spec.layer0 (M := 50000) (V c main_v34) (V c main_arg2) (V c main_arg3)

/-- The printed index maps over the grid: the row windows sit at block row `t`, the weights and the bias at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of the layer of the whole arrays. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S128) hz1]
  rw [show k0_pay1 (iblk0 V c 0 t) (iblk0 V c 1 t) (iblk0 V c 2 t)
      = Cert.Spec.layer0 (M := 5000) (iblk0 V c 0 t) (iblk0 V c 1 t) (iblk0 V c 2 t) from Cert.KernelIdeal.Body.pay0_eq _ _ _]
  obtain ⟨e0, e1, e2, e3, e4, e5, e6⟩ := idx_facts t
  have ht : t.val < 10 := t.isLt
  funext j
  obtain ⟨p', q', rfl⟩ : ∃ (p' : Fin 5000) (q' : Fin 128), j = ix2 p' q' := ⟨j 0, j 1, eq_ix2 j⟩
  show Cert.Spec.layer0 (M := 5000) (iblk0 V c 0 t) (iblk0 V c 1 t) (iblk0 V c 2 t) (ix2 p' q')
    = G V c (((cfg0.win 3).blk t).view.emb (ix2 p' q'))
  have hemb : ((cfg0.win 3).blk t).view.emb (ix2 p' q') = ix2 (⟨t.val * 5000 + p'.val, by omega⟩ : Fin 50000) q' := by
    funext a; apply Fin.ext
    match a with
    | ⟨0, _⟩ => show win0_3.index t (0 : Fin 2) * 5000 + 1 * p'.val = t.val * 5000 + p'.val; omega
    | ⟨1, _⟩ => show win0_3.index t (1 : Fin 2) * 128 + 1 * q'.val = q'.val; omega
  rw [hemb]
  refine Cert.Spec.layer0_rows _ _ _ _ _ _ _ _ _ _ (fun k => ?_) (fun k => ?_) ?_
  · show V c main_v34 (((cfg0.win 0).blk t).view.emb (ix2 p' k)) = V c main_v34 (ix2 (⟨t.val * 5000 + p'.val, by omega⟩ : Fin 50000) k)
    refine congrArg (V c main_v34) ?_
    funext a; apply Fin.ext
    match a with
    | ⟨0, _⟩ => show win0_0.index t (0 : Fin 2) * 5000 + 1 * p'.val = t.val * 5000 + p'.val; omega
    | ⟨1, _⟩ => show win0_0.index t (1 : Fin 2) * 128 + 1 * k.val = k.val; omega
  · show V c main_arg2 (((cfg0.win 1).blk t).view.emb (ix2 k q')) = V c main_arg2 (ix2 k q')
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q'.val = q'.val; omega
  · show V c main_arg3 (((cfg0.win 2).blk t).view.emb (ix1 q')) = V c main_arg3 (ix1 q')
    refine congrArg (V c main_arg3) ?_
    funext a; apply Fin.ext
    match a with
    | ⟨0, _⟩ => show win0_2.index t (0 : Fin 1) * 128 + 1 * q'.val = q'.val; omega

/-- An index of the result array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v35).slice (win0_3.rect t)).set ↔ _
  rw [View.set_slice_whole, Rect.mem_set_unit]
  exact Iff.rfl

/-- Row `r` lies in the block of point `r / 5000`: the ten blocks tile the array. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hlt : (i 0).val / 5000 < 10 := by omega
  obtain ⟨e0, e1, e2, e3, e4, e5, e6⟩ := idx_facts ⟨(i 0).val / 5000, hlt⟩
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e5]
    show (i 0).val / 5000 * 5000 ≤ (i 0).val ∧ (i 0).val < (i 0).val / 5000 * 5000 + 5000
    omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e6]
    omega

/-- The result array after the call: layer 0 of the arrays it was entered with. -/
theorem final (c : Dev nD) : (dat0 V c).arrAt 3 cfg0.N = G V c :=
  (dat0 V c).arrAt_eq_of_cover 3 (G V c) (fun t _ => flushed_eq V c t) (cover)

end Cert.KernelIdeal.Region0

end
-- ==== Proof.KRegion1.lean ====
/-
  Layer 1's pallas_call, from blocks to the array.

  Point `t` of the ten reads rows `5000·t … 5000·t + 4999` of the residual stream and of the aggregated features,
  the whole weight matrix and the whole bias, and writes back the same rows of the result. The layer is row-wise,
  so what point `t` writes back is block `t` of the layer of the whole arrays, and the ten blocks tile the 50000
  rows: the result array ends holding the layer of the arrays the call was entered with.
-/
import proofs.«158194_j45294725104222_1_alg».proof.Proof.Gen.KernelIdeal.Frame
import proofs.«158194_j45294725104222_1_alg».proof.Proof.KPay
import Idealize.ShloMosaic.Lib.Pipeline.Value

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The layer of the arrays the call is entered with: the residual stream, the aggregated features, weights, bias. -/
abbrev G (c : Dev nD) : FVec Ideal S50000x128 .f32 :=
  Cert.Spec.layer1 (M := 50000) (V c main_v35) (V c main_v51) (V c main_arg4) (V c main_arg5)

/-- The printed index maps over the grid: the row windows sit at block row `t`, the weights and the bias at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What point `t` writes back is block `t` of the layer of the whole arrays. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz2]
  simp only [View.ld_unit_zero (S := S5000x128) hz2, View.ld_unit_zero (S := S128x128) hz2, View.ld_unit_zero (S := S128) hz1]
  rw [show k1_pay1 (iblk1 V c 1 t) (iblk1 V c 2 t) (iblk1 V c 3 t) (iblk1 V c 0 t)
      = Cert.Spec.layer1 (M := 5000) (iblk1 V c 0 t) (iblk1 V c 1 t) (iblk1 V c 2 t) (iblk1 V c 3 t)
      from Cert.KernelIdeal.Body.pay1_eq _ _ _ _]
  obtain ⟨e0, e1, e2, e3, e4, e5, e6, e7, e8⟩ := idx_facts t
  have ht : t.val < 10 := t.isLt
  funext j
  obtain ⟨p', q', rfl⟩ : ∃ (p' : Fin 5000) (q' : Fin 128), j = ix2 p' q' := ⟨j 0, j 1, eq_ix2 j⟩
  show Cert.Spec.layer1 (M := 5000) (iblk1 V c 0 t) (iblk1 V c 1 t) (iblk1 V c 2 t) (iblk1 V c 3 t) (ix2 p' q')
    = G V c (((cfg1.win 4).blk t).view.emb (ix2 p' q'))
  have hemb : ((cfg1.win 4).blk t).view.emb (ix2 p' q') = ix2 (⟨t.val * 5000 + p'.val, by omega⟩ : Fin 50000) q' := by
    funext a; apply Fin.ext
    match a with
    | ⟨0, _⟩ => show win1_4.index t (0 : Fin 2) * 5000 + 1 * p'.val = t.val * 5000 + p'.val; omega
    | ⟨1, _⟩ => show win1_4.index t (1 : Fin 2) * 128 + 1 * q'.val = q'.val; omega
  rw [hemb]
  refine Cert.Spec.layer1_rows _ _ _ _ _ _ _ _ _ _ _ _ ?_ (fun k => ?_) (fun k => ?_) ?_
  · show V c main_v35 (((cfg1.win 0).blk t).view.emb (ix2 p' q')) = V c main_v35 (ix2 (⟨t.val * 5000 + p'.val, by omega⟩ : Fin 50000) q')
    refine congrArg (V c main_v35) ?_
    funext a; apply Fin.ext
    match a with
    | ⟨0, _⟩ => show win1_0.index t (0 : Fin 2) * 5000 + 1 * p'.val = t.val * 5000 + p'.val; omega
    | ⟨1, _⟩ => show win1_0.index t (1 : Fin 2) * 128 + 1 * q'.val = q'.val; omega
  · show V c main_v51 (((cfg1.win 1).blk t).view.emb (ix2 p' k)) = V c main_v51 (ix2 (⟨t.val * 5000 + p'.val, by omega⟩ : Fin 50000) k)
    refine congrArg (V c main_v51) ?_
    funext a; apply Fin.ext
    match a with
    | ⟨0, _⟩ => show win1_1.index t (0 : Fin 2) * 5000 + 1 * p'.val = t.val * 5000 + p'.val; omega
    | ⟨1, _⟩ => show win1_1.index t (1 : Fin 2) * 128 + 1 * k.val = k.val; omega
  · show V c main_arg4 (((cfg1.win 2).blk t).view.emb (ix2 k q')) = V c main_arg4 (ix2 k q')
    refine congrArg (V c main_arg4) ?_
    funext a; apply Fin.ext
    match a with
    | ⟨0, _⟩ => show win1_2.index t (0 : Fin 2) * 128 + 1 * k.val = k.val; omega
    | ⟨1, _⟩ => show win1_2.index t (1 : Fin 2) * 128 + 1 * q'.val = q'.val; omega
  · show V c main_arg5 (((cfg1.win 3).blk t).view.emb (ix1 q')) = V c main_arg5 (ix1 q')
    refine congrArg (V c main_arg5) ?_
    funext a; apply Fin.ext
    match a with
    | ⟨0, _⟩ => show win1_3.index t (0 : Fin 1) * 128 + 1 * q'.val = q'.val; omega

/-- An index of the result array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v52).slice (win1_4.rect t)).set ↔ _
  rw [View.set_slice_whole, Rect.mem_set_unit]
  exact Iff.rfl

/-- Row `r` lies in the block of point `r / 5000`: the ten blocks tile the array. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hlt : (i 0).val / 5000 < 10 := by omega
  obtain ⟨e0, e1, e2, e3, e4, e5, e6, e7, e8⟩ := idx_facts ⟨(i 0).val / 5000, hlt⟩
  refine ⟨⟨(i 0).val / 5000, hlt⟩, flush1_4 _, ?_⟩
  rw [mem_blk]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    rw [e7]
    show (i 0).val / 5000 * 5000 ≤ (i 0).val ∧ (i 0).val < (i 0).val / 5000 * 5000 + 5000
    omega
  | ⟨1, _⟩ =>
    show win1_4.index ⟨(i 0).val / 5000, hlt⟩ (1 : Fin 2) * 128 ≤ (i 1).val
      ∧ (i 1).val < win1_4.index ⟨(i 0).val / 5000, hlt⟩ (1 : Fin 2) * 128 + 128
    rw [e8]
    omega

/-- The result array after the call: layer 1 of the arrays it was entered with. -/
theorem final (c : Dev nD) : (dat1 V c).arrAt 4 cfg1.N = G V c :=
  (dat1 V c).arrAt_eq_of_cover 4 (G V c) (fun t _ => flushed_eq V c t) (cover)

end Cert.KernelIdeal.Region1

end
-- ==== Proof.KRegion2.lean ====
/-
  Layer 2's pallas_call, from blocks to the array.

  Point `t` of the ten reads rows `5000·t … 5000·t + 4999` of the residual stream and of the aggregated features,
  both whole weight matrices and both whole biases, and writes back the same rows of the 64-column result. The
  layer is row-wise, so what point `t` writes back is block `t` of the layer of the whole arrays, and the ten blocks
  tile the 50000 rows: the result array ends holding the layer of the arrays the call was entered with.
-/
import proofs.«158194_j45294725104222_1_alg».proof.Proof.Gen.KernelIdeal.Frame
import proofs.«158194_j45294725104222_1_alg».proof.Proof.KPay
import Idealize.ShloMosaic.Lib.Pipeline.Value

set_option maxRecDepth 16384

noncomputable section

namespace Cert.KernelIdeal.Region2

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The layer of the arrays the call is entered with: the residual stream, the aggregated features, the layer's
    weights and bias, the skip projection's weights and bias. -/
abbrev G (c : Dev nD) : FVec Ideal S50000x64 .f32 :=
  Cert.Spec.layer2 (M := 50000) (V c main_v52) (V c main_v68) (V c main_arg6) (V c main_arg7) (V c main_arg8) (V c main_arg9)

/-- The printed index maps over the grid: the row windows sit at block row `t`, the weights and the biases at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- What point `t` writes back is block `t` of the layer of the whole arrays. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S128x64) hz2, View.ld_unit_zero (S := S64) hz1]
  rw [show k2_pay1 (iblk2 V c 1 t) (iblk2 V c 2 t) (iblk2 V c 3 t) (iblk2 V c 0 t) (iblk2 V c 4 t) (iblk2 V c 5 t)
      = Cert.Spec.layer2 (M := 5000) (iblk2 V c 0 t) (iblk2 V c 1 t) (iblk2 V c 2 t) (iblk2 V c 3 t) (iblk2 V c 4 t) (iblk2 V c 5 t)
      from Cert.KernelIdeal.Body.pay2_eq _ _ _ _ _ _]
  obtain ⟨e0, e1, e2, e3, e4, e5, e6, e7, e8, e9, e10, e11⟩ := idx_facts t
  have ht : t.val < 10 := t.isLt
  funext j
  obtain ⟨p', q', rfl⟩ : ∃ (p' : Fin 5000) (q' : Fin 64), j = ix2 p' q' := ⟨j 0, j 1, eq_ix2 j⟩
  show Cert.Spec.layer2 (M := 5000) (iblk2 V c 0 t) (iblk2 V c 1 t) (iblk2 V c 2 t) (iblk2 V c 3 t) (iblk2 V c 4 t) (iblk2 V c 5 t) (ix2 p' q')
    = G V c (((cfg2.win 6).blk t).view.emb (ix2 p' q'))
  have hemb : ((cfg2.win 6).blk t).view.emb (ix2 p' q') = ix2 (⟨t.val * 5000 + p'.val, by omega⟩ : Fin 50000) q' := by
    funext a; apply Fin.ext
    match a with
    | ⟨0, _⟩ => show win2_6.index t (0 : Fin 2) * 5000 + 1 * p'.val = t.val * 5000 + p'.val; omega
    | ⟨1, _⟩ => show win2_6.index t (1 : Fin 2) * 64 + 1 * q'.val = q'.val; omega
  rw [hemb]
  refine Cert.Spec.layer2_rows _ _ _ _ _ _ _ _ _ _ _ _ _ _ _ _ (fun k => ?_) (fun k => ?_) (fun k => ?_) ?_ (fun k => ?_) ?_
  · show V c main_v52 (((cfg2.win 0).blk t).view.emb (ix2 p' k)) = V c main_v52 (ix2 (⟨t.val * 5000 + p'.val, by omega⟩ : Fin 50000) k)
    refine congrArg (V c main_v52) ?_
    funext a; apply Fin.ext
    match a with
    | ⟨0, _⟩ => show win2_0.index t (0 : Fin 2) * 5000 + 1 * p'.val = t.val * 5000 + p'.val; omega
    | ⟨1, _⟩ => show win2_0.index t (1 : Fin 2) * 128 + 1 * k.val = k.val; omega
  · show V c main_v68 (((cfg2.win 1).blk t).view.emb (ix2 p' k)) = V c main_v68 (ix2 (⟨t.val * 5000 + p'.val, by omega⟩ : Fin 50000) k)
    refine congrArg (V c main_v68) ?_
    funext a; apply Fin.ext
    match a with
    | ⟨0, _⟩ => show win2_1.index t (0 : Fin 2) * 5000 + 1 * p'.val = t.val * 5000 + p'.val; omega
    | ⟨1, _⟩ => show win2_1.index t (1 : Fin 2) * 128 + 1 * k.val = k.val; omega
  · show V c main_arg6 (((cfg2.win 2).blk t).view.emb (ix2 k q')) = V c main_arg6 (ix2 k q')
    refine congrArg (V c main_arg6) ?_
    funext a; apply Fin.ext
    match a with
    | ⟨0, _⟩ => show win2_2.index t (0 : Fin 2) * 128 + 1 * k.val = k.val; omega
    | ⟨1, _⟩ => show win2_2.index t (1 : Fin 2) * 64 + 1 * q'.val = q'.val; omega
  · show V c main_arg7 (((cfg2.win 3).blk t).view.emb (ix1 q')) = V c main_arg7 (ix1 q')
    refine congrArg (V c main_arg7) ?_
    funext a; apply Fin.ext
    match a with
    | ⟨0, _⟩ => show win2_3.index t (0 : Fin 1) * 64 + 1 * q'.val = q'.val; omega
  · show V c main_arg8 (((cfg2.win 4).blk t).view.emb (ix2 k q')) = V c main_arg8 (ix2 k q')
    refine congrArg (V c main_arg8) ?_
    funext a; apply Fin.ext
    match a with
    | ⟨0, _⟩ => show win2_4.index t (0 : Fin 2) * 128 + 1 * k.val = k.val; omega
    | ⟨1, _⟩ => show win2_4.index t (1 : Fin 2) * 64 + 1 * q'.val = q'.val; omega
  · show V c main_arg9 (((cfg2.win 5).blk t).view.emb (ix1 q')) = V c main_arg9 (ix1 q')
    refine congrArg (V c main_arg9) ?_
    funext a; apply Fin.ext
    match a with
    | ⟨0, _⟩ => show win2_5.index t (0 : Fin 1) * 64 + 1 * q'.val = q'.val; omega

/-- An index of the result array is in point `t`'s block iff each coordinate is in the block's range on its axis. -/
theorem mem_blk (t : Fin cfg2.N) (i : S50000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v69).slice (win2_6.rect t)).set ↔ _
  rw [View.set_slice_whole, Rect.mem_set_unit]
  exact Iff.rfl

/-- Row `r` lies in the block of point `r / 5000`: the ten blocks tile the array. -/
theorem cover (i : S50000x64.Idx) : ∃ t : Fin cfg2.N, (cfg2.win 6).flush t = true ∧ i ∈ ((cfg2.win 6).blk t).view.set := by
  have hi0 : (i 0).val < 50000 := (i 0).isLt
  have hi1 : (i 1).val < 64 := (i 1).isLt
  have hlt : (i 0).val / 5000 < 10 := by omega
  obtain ⟨e0, e1, e2, e3, e4, e5, e6, e7, e8, e9, e10, e11⟩ := idx_facts ⟨(i 0).val / 5000, hlt⟩
  refine ⟨⟨(i 0).val / 5000, hlt⟩, flush2_6 _, ?_⟩
  rw [mem_blk]
  intro a
  match a with
  | ⟨0, _⟩ =>
    show win2_6.index ⟨(i 0).val / 5000, hlt⟩ (0 : Fin 2) * 5000 ≤ (i 0).val
      ∧ (i 0).val < win2_6.index ⟨(i 0).val / 5000, hlt⟩ (0 : Fin 2) * 5000 + 5000
    rw [e10]
    show (i 0).val / 5000 * 5000 ≤ (i 0).val ∧ (i 0).val < (i 0).val / 5000 * 5000 + 5000
    omega
  | ⟨1, _⟩ =>
    show win2_6.index ⟨(i 0).val / 5000, hlt⟩ (1 : Fin 2) * 64 ≤ (i 1).val
      ∧ (i 1).val < win2_6.index ⟨(i 0).val / 5000, hlt⟩ (1 : Fin 2) * 64 + 64
    rw [e11]
    omega

/-- The result array after the call: layer 2 of the arrays it was entered with. -/
theorem final (c : Dev nD) : (dat2 V c).arrAt 6 cfg2.N = G V c :=
  (dat2 V c).arrAt_eq_of_cover 6 (G V c) (fun t _ => flushed_eq V c t) (cover)

end Cert.KernelIdeal.Region2

end
-- ==== Proof.KHost.lean ====
/-
  The kernel program's result buffer, read through its host stretches and its three calls.

  Between two items of @main the buffers hold: the launch memory; then the first stretch's results (the edges' ends,
  the two normalisers, the first aggregation); then layer 0's result in its array and everything else as before; then
  the second stretch's results (the second aggregation, of layer 0's result); and so on. A buffer nobody writes in
  between keeps its contents, so each later item finds the ends, the normalisers and the weights where the first
  stretch, or the launch, left them. Read back from the end, the result buffer holds the specification's `out`
  of the arguments.
-/
import proofs.«158194_j45294725104222_1_alg».proof.Proof.KRegion0
import proofs.«158194_j45294725104222_1_alg».proof.Proof.KRegion1
import proofs.«158194_j45294725104222_1_alg».proof.Proof.KRegion2
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## What each host stretch writes, and what it therefore keeps -/

/-- The buffers the first stretch writes. -/
abbrev wr0 : List (Ref sig .tc) :=
  [main_v0, main_v1, main_v2, main_v3, main_cst, main_v4, main_cst_0, main_v5, main_v6, main_v7, main_cst_1, main_v8, main_v9,
   main_v10, main_cst_2, main_v11, main_v12, main_cst_3, main_v13, main_v14, main_cst_4, main_v15, main_v16, main_cst_5, main_v17,
   main_v18, main_v19, main_v20, main_v21, main_c, main_v22, main_v23, main_c_6, main_v24, main_v25, main_v26, main_v27, main_v28,
   main_cst_7, main_v29, main_v30, main_v31, main_v32, main_v33, main_v34]
/-- The buffers the second stretch writes. -/
abbrev wr1 : List (Ref sig .tc) :=
  [main_v36, main_v37, main_v38, main_c_8, main_v39, main_v40, main_c_9, main_v41, main_v42, main_v43, main_v44, main_v45,
   main_cst_10, main_v46, main_v47, main_v48, main_v49, main_v50, main_v51]
/-- The buffers the third stretch writes. -/
abbrev wr2 : List (Ref sig .tc) :=
  [main_v53, main_v54, main_v55, main_c_11, main_v56, main_v57, main_c_12, main_v58, main_v59, main_v60, main_v61, main_v62,
   main_cst_13, main_v63, main_v64, main_v65, main_v66, main_v67, main_v68]

theorem wr0_sub : (hostOps0 : List (HloOp τ sig (Elt Ideal))).Forall fun op => op.writes ⊆ (wr0.map (Proc.devRef (τ := τ) .tc)).toFinset := by
  simp only [List.Forall]
  repeat' apply And.intro
  all_goals (simp only [StableHlo.nullary_writes, StableHlo.unary_writes, StableHlo.binary_writes, StableHlo.ternary_writes,
    StableHlo.reshape_writes, Finset.singleton_subset_iff, List.mem_toFinset]; exact List.mem_map_of_mem (by decide))
theorem wr1_sub : (hostOps1 : List (HloOp τ sig (Elt Ideal))).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes,
    StableHlo.reshape_writes, Finset.singleton_subset_iff, List.mem_toFinset]; exact List.mem_map_of_mem (by decide))
theorem wr2_sub : (hostOps2 : List (HloOp τ sig (Elt Ideal))).Forall fun op => op.writes ⊆ (wr2.map (Proc.devRef (τ := τ) .tc)).toFinset := by
  simp only [List.Forall]
  repeat' apply And.intro
  all_goals (simp only [StableHlo.nullary_writes, StableHlo.unary_writes, StableHlo.binary_writes, StableHlo.ternary_writes,
    StableHlo.reshape_writes, Finset.singleton_subset_iff, List.mem_toFinset]; exact List.mem_map_of_mem (by decide))

/-- A buffer the first stretch does not write holds its launch contents at layer 0's entry. -/
theorem keep0 (c : Dev nD) (r : Ref sig .tc) (h : r ∉ wr0) : W1 m ρ c (Proc.devRef .tc r) = m ((c : Thread nD τ).loc r) :=
  StableHlo.after_of_writes_sub hostOps0 (W0 m ρ c) wr0_sub h
/-- A buffer that is none of layer 0's arrays is the same at its exit as at its entry. -/
theorem keepA (c : Dev nD) (r : Ref sig .tc) (h : ∀ w, Pipeline.arrRef spec0 w ≠ r) :
    W2 m ρ c (Proc.devRef .tc r) = W1 m ρ c (Proc.devRef .tc r) := W2_of_ne m ρ c r h
theorem keep1 (c : Dev nD) (r : Ref sig .tc) (h : r ∉ wr1) : W3 m ρ c (Proc.devRef .tc r) = W2 m ρ c (Proc.devRef .tc r) :=
  StableHlo.after_of_writes_sub hostOps1 (W2 m ρ c) wr1_sub h
theorem keepB (c : Dev nD) (r : Ref sig .tc) (h : ∀ w, Pipeline.arrRef spec1 w ≠ r) :
    W4 m ρ c (Proc.devRef .tc r) = W3 m ρ c (Proc.devRef .tc r) := W4_of_ne m ρ c r h
theorem keep2 (c : Dev nD) (r : Ref sig .tc) (h : r ∉ wr2) : W5 m ρ c (Proc.devRef .tc r) = W4 m ρ c (Proc.devRef .tc r) :=
  StableHlo.after_of_writes_sub hostOps2 (W4 m ρ c) wr2_sub h

/-! ## The first stretch: the ends, the normalisers, the first aggregation -/

abbrev e (c : Dev nD) : Cert.Spec.Edges := m ((c : Thread nD τ).loc main_arg1)

theorem src_at (c : Dev nD) : W1 m ρ c (Proc.devRef .tc main_v1) = Cert.Spec.srcOf (e m c) := by
  show StableHlo.after hostOps0 (W0 m ρ c) (Proc.devRef .tc main_v1) = _
  after_results_simp
  rfl
theorem dst_at (c : Dev nD) : W1 m ρ c (Proc.devRef .tc main_v3) = Cert.Spec.dstOf (e m c) := by
  show StableHlo.after hostOps0 (W0 m ρ c) (Proc.devRef .tc main_v3) = _
  after_results_simp
  rfl
theorem nout_at (c : Dev nD) : W1 m ρ c (Proc.devRef .tc main_v14) = Cert.Spec.norm (Cert.Spec.srcOf (e m c)) := by
  show StableHlo.after hostOps0 (W0 m ρ c) (Proc.devRef .tc main_v14) = _
  after_results_simp
  rfl
theorem nin_at (c : Dev nD) : W1 m ρ c (Proc.devRef .tc main_v18) = Cert.Spec.norm (Cert.Spec.dstOf (e m c)) := by
  show StableHlo.after hostOps0 (W0 m ρ c) (Proc.devRef .tc main_v18) = _
  after_results_simp
  rfl
theorem agg0_at (c : Dev nD) :
    W1 m ρ c (Proc.devRef .tc main_v34) = Cert.Spec.agg (m ((c : Thread nD τ).loc main_arg0)) (e m c) := by
  show StableHlo.after hostOps0 (W0 m ρ c) (Proc.devRef .tc main_v34) = _
  after_results_simp
  rfl

/-! ## The layers' results, one boundary after another -/

abbrev x0 (c : Dev nD) : Cert.Spec.Feat := m ((c : Thread nD τ).loc main_arg0)
/-- Layer 0's result. -/
abbrev h1 (c : Dev nD) : Cert.Spec.Feat :=
  Cert.Spec.layer0 (M := 50000) (Cert.Spec.agg (x0 m c) (e m c)) (m ((c : Thread nD τ).loc main_arg2)) (m ((c : Thread nD τ).loc main_arg3))
/-- Layer 1's result. -/
abbrev h2 (c : Dev nD) : Cert.Spec.Feat :=
  Cert.Spec.layer1 (M := 50000) (h1 m c) (Cert.Spec.agg (h1 m c) (e m c)) (m ((c : Thread nD τ).loc main_arg4)) (m ((c : Thread nD τ).loc main_arg5))

/-- After layer 0's call its result array holds layer 0 of the first aggregation. -/
theorem h1_at (c : Dev nD) : W2 m ρ c (Proc.devRef .tc main_v35) = h1 m c := by
  refine ((W2_arr m ρ c 3).trans (Cert.KernelIdeal.Region0.final (V1 m ρ) c)).trans ?_
  show Cert.Spec.layer0 (M := 50000) (W1 m ρ c (Proc.devRef .tc main_v34)) (W1 m ρ c (Proc.devRef .tc main_arg2))
    (W1 m ρ c (Proc.devRef .tc main_arg3)) = _
  rw [agg0_at, keep0 m ρ c main_arg2 (by decide), keep0 m ρ c main_arg3 (by decide)]

/-- The second stretch aggregates layer 0's result over the same ends and normalisers. -/
theorem agg1_at (c : Dev nD) : W3 m ρ c (Proc.devRef .tc main_v51) = Cert.Spec.agg (h1 m c) (e m c) := by
  show StableHlo.after hostOps1 (W2 m ρ c) (Proc.devRef .tc main_v51) = _
  after_results
  rw [h1_at, keepA m ρ c main_v1 (by decide), keepA m ρ c main_v3 (by decide), keepA m ρ c main_v14 (by decide),
    keepA m ρ c main_v18 (by decide), src_at, dst_at, nout_at, nin_at]
  rfl

/-- After layer 1's call its result array holds layer 1 of layer 0's result and the second aggregation. -/
theorem h2_at (c : Dev nD) : W4 m ρ c (Proc.devRef .tc main_v52) = h2 m c := by
  refine ((W4_arr m ρ c 4).trans (Cert.KernelIdeal.Region1.final (V3 m ρ) c)).trans ?_
  show Cert.Spec.layer1 (M := 50000) (W3 m ρ c (Proc.devRef .tc main_v35)) (W3 m ρ c (Proc.devRef .tc main_v51))
    (W3 m ρ c (Proc.devRef .tc main_arg4)) (W3 m ρ c (Proc.devRef .tc main_arg5)) = _
  rw [agg1_at, keep1 m ρ c main_v35 (by decide), h1_at,
    keep1 m ρ c main_arg4 (by decide), keepA m ρ c main_arg4 (by decide), keep0 m ρ c main_arg4 (by decide),
    keep1 m ρ c main_arg5 (by decide), keepA m ρ c main_arg5 (by decide), keep0 m ρ c main_arg5 (by decide)]

/-- The third stretch aggregates layer 1's result over the same ends and normalisers. -/
theorem agg2_at (c : Dev nD) : W5 m ρ c (Proc.devRef .tc main_v68) = Cert.Spec.agg (h2 m c) (e m c) := by
  show StableHlo.after hostOps2 (W4 m ρ c) (Proc.devRef .tc main_v68) = _
  after_results
  rw [h2_at,
    keepB m ρ c main_v1 (by decide), keep1 m ρ c main_v1 (by decide), keepA m ρ c main_v1 (by decide),
    keepB m ρ c main_v3 (by decide), keep1 m ρ c main_v3 (by decide), keepA m ρ c main_v3 (by decide),
    keepB m ρ c main_v14 (by decide), keep1 m ρ c main_v14 (by decide), keepA m ρ c main_v14 (by decide),
    keepB m ρ c main_v18 (by decide), keep1 m ρ c main_v18 (by decide), keepA m ρ c main_v18 (by decide),
    src_at, dst_at, nout_at, nin_at]
  rfl

/-- A weight or bias of layer 2 is at its launch contents when layer 2 is entered. -/
theorem late_arg (c : Dev nD) (r : Ref sig .tc) (h2' : r ∉ wr2) (hB : ∀ w, Pipeline.arrRef spec1 w ≠ r) (h1' : r ∉ wr1)
    (hA : ∀ w, Pipeline.arrRef spec0 w ≠ r) (h0 : r ∉ wr0) : W5 m ρ c (Proc.devRef .tc r) = m ((c : Thread nD τ).loc r) :=
  (keep2 m ρ c r h2').trans ((keepB m ρ c r hB).trans ((keep1 m ρ c r h1').trans ((keepA m ρ c r hA).trans (keep0 m ρ c r h0))))

/-- After layer 2's call its result array holds layer 2 of layer 1's result and the third aggregation. -/
theorem h3_at (c : Dev nD) : W6 m ρ c (Proc.devRef .tc main_v69)
    = Cert.Spec.layer2 (M := 50000) (h2 m c) (Cert.Spec.agg (h2 m c) (e m c)) (m ((c : Thread nD τ).loc main_arg6))
        (m ((c : Thread nD τ).loc main_arg7)) (m ((c : Thread nD τ).loc main_arg8)) (m ((c : Thread nD τ).loc main_arg9)) := by
  refine ((W6_arr m ρ c 6).trans (Cert.KernelIdeal.Region2.final (V5 m ρ) c)).trans ?_
  show Cert.Spec.layer2 (M := 50000) (W5 m ρ c (Proc.devRef .tc main_v52)) (W5 m ρ c (Proc.devRef .tc main_v68))
    (W5 m ρ c (Proc.devRef .tc main_arg6)) (W5 m ρ c (Proc.devRef .tc main_arg7)) (W5 m ρ c (Proc.devRef .tc main_arg8))
    (W5 m ρ c (Proc.devRef .tc main_arg9)) = _
  rw [agg2_at, keep2 m ρ c main_v52 (by decide), h2_at,
    late_arg m ρ c main_arg6 (by decide) (by decide) (by decide) (by decide) (by decide),
    late_arg m ρ c main_arg7 (by decide) (by decide) (by decide) (by decide) (by decide),
    late_arg m ρ c main_arg8 (by decide) (by decide) (by decide) (by decide) (by decide),
    late_arg m ρ c main_arg9 (by decide) (by decide) (by decide) (by decide) (by decide)]

/-- The result buffer at the last boundary: the specification's `out` of the arguments. -/
theorem result_at (c : Dev nD) : W7 m ρ c (Proc.devRef .tc main_v70)
    = Cert.Spec.out (x0 m c) (e m c) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) := by
  show StableHlo.after hostOps3 (W6 m ρ c) (Proc.devRef .tc main_v70) = _
  after_results
  rw [h3_at]
  rfl

end Cert.KernelIdeal.Host

end
-- ==== Proof.RefValue.lean ====
/-
  The reference, read: its result is the specification's `out` of its arguments.

  The reference's stages for the irregular part of each layer ARE the shared aggregation of the stage before
  (the same operations on the same records: by unfolding). Its regular part, read at an element through the
  generated index lemmas, is the layer's row formula: the host's `dot_general` at `(p, q)` is the sum over `k` of
  the left operand at `(p, k)` times the right at `(k, q)`, the bias broadcast reads the bias at `q`, and the
  scalar constants are their words' values.
-/
import proofs.«158194_j45294725104222_1_alg».proof.Proof.Gen.ReferenceIdeal.Read
import proofs.«158194_j45294725104222_1_alg».proof.Proof.Spec

noncomputable section

namespace Cert.ReferenceIdeal.RefValue

open Idealize.ShloMosaic Idealize.ShloMosaic.ValueIdx
open Cert.ReferenceIdeal Cert.ReferenceIdeal.Gen Cert.ReferenceIdeal.Read

/-! ## The irregular part: each aggregation stage is `agg` of the stage before -/

theorem agg0 (x0 : FVec Ideal S50000x128 .f32) (x1 : IVec S2x800000 32) :
    val_main_v34 (F := Ideal) x0 x1 = Cert.Spec.agg x0 x1 := rfl

theorem agg1 (x0 : FVec Ideal S50000x128 .f32) (x1 : IVec S2x800000 32) (x2 : FVec Ideal S128x128 .f32) (x3 : FVec Ideal S128 .f32) :
    val_main_v55 (F := Ideal) x0 x1 x2 x3 = Cert.Spec.agg (val_main_v39 (F := Ideal) x0 x1 x2 x3) x1 := rfl

theorem agg2 (x0 : FVec Ideal S50000x128 .f32) (x1 : IVec S2x800000 32) (x2 : FVec Ideal S128x128 .f32) (x3 : FVec Ideal S128 .f32)
    (x4 : FVec Ideal S128x128 .f32) (x5 : FVec Ideal S128 .f32) :
    val_main_v81 (F := Ideal) x0 x1 x2 x3 x4 x5 = Cert.Spec.agg (val_main_v65 (F := Ideal) x0 x1 x2 x3 x4 x5) x1 := rfl

/-! ## The index maps of the regular stages, at `(p, q)` -/

theorem l35 (p : Fin 50000) (q k : Fin 128) : lidx_main_v35 (ix2 p q) k = ix2 p k :=
  funext fun a => Fin.ext (by match a with | ⟨0, _⟩ => rfl | ⟨1, _⟩ => rfl)
theorem r35 (p : Fin 50000) (q k : Fin 128) : ridx_main_v35 (ix2 p q) k = ix2 k q :=
  funext fun a => Fin.ext (by match a with | ⟨0, _⟩ => rfl | ⟨1, _⟩ => rfl)
theorem b37 (p : Fin 50000) (q : Fin 128) : idx_main_v36 (idx_main_v37 (ix2 p q)) = ix1 q :=
  funext fun a => Fin.ext (by match a with | ⟨0, _⟩ => rfl)
theorem l56 (p : Fin 50000) (q k : Fin 128) : lidx_main_v56 (ix2 p q) k = ix2 p k :=
  funext fun a => Fin.ext (by match a with | ⟨0, _⟩ => rfl | ⟨1, _⟩ => rfl)
theorem r56 (p : Fin 50000) (q k : Fin 128) : ridx_main_v56 (ix2 p q) k = ix2 k q :=
  funext fun a => Fin.ext (by match a with | ⟨0, _⟩ => rfl | ⟨1, _⟩ => rfl)
theorem b58 (p : Fin 50000) (q : Fin 128) : idx_main_v57 (idx_main_v58 (ix2 p q)) = ix1 q :=
  funext fun a => Fin.ext (by match a with | ⟨0, _⟩ => rfl)
theorem l82 (p : Fin 50000) (q : Fin 64) (k : Fin 128) : lidx_main_v82 (ix2 p q) k = ix2 p k :=
  funext fun a => Fin.ext (by match a with | ⟨0, _⟩ => rfl | ⟨1, _⟩ => rfl)
theorem r82 (p : Fin 50000) (q : Fin 64) (k : Fin 128) : ridx_main_v82 (ix2 p q) k = ix2 k q :=
  funext fun a => Fin.ext (by match a with | ⟨0, _⟩ => rfl | ⟨1, _⟩ => rfl)
theorem b84 (p : Fin 50000) (q : Fin 64) : idx_main_v83 (idx_main_v84 (ix2 p q)) = ix1 q :=
  funext fun a => Fin.ext (by match a with | ⟨0, _⟩ => rfl)
theorem l86 (p : Fin 50000) (q : Fin 64) (k : Fin 128) : lidx_main_v86 (ix2 p q) k = ix2 p k :=
  funext fun a => Fin.ext (by match a with | ⟨0, _⟩ => rfl | ⟨1, _⟩ => rfl)
theorem r86 (p : Fin 50000) (q : Fin 64) (k : Fin 128) : ridx_main_v86 (ix2 p q) k = ix2 k q :=
  funext fun a => Fin.ext (by match a with | ⟨0, _⟩ => rfl | ⟨1, _⟩ => rfl)
theorem b88 (p : Fin 50000) (q : Fin 64) : idx_main_v87 (idx_main_v88 (ix2 p q)) = ix1 q :=
  funext fun a => Fin.ext (by match a with | ⟨0, _⟩ => rfl)

/-! ## The regular part: each layer's stage is the layer of its operand stages -/

theorem ref_layer0 (x0 : FVec Ideal S50000x128 .f32) (x1 : IVec S2x800000 32) (x2 : FVec Ideal S128x128 .f32) (x3 : FVec Ideal S128 .f32) :
    val_main_v39 (F := Ideal) x0 x1 x2 x3 = Cert.Spec.layer0 (M := 50000) (val_main_v34 (F := Ideal) x0 x1) x2 x3 := by
  funext i
  obtain ⟨p, q, rfl⟩ : ∃ (p : Fin 50000) (q : Fin 128), i = ix2 p q := ⟨i 0, i 1, eq_ix2 i⟩
  rw [Cert.Spec.layer0_apply, val_main_v39_apply, val_main_v38_apply, val_main_v35_apply, val_main_v37_apply, val_main_v36_apply,
    val_main_call0_v0_apply, val_main_call0_cst_apply, b37]
  simp only [l35, r35]
  rfl

theorem ref_layer1 (x0 : FVec Ideal S50000x128 .f32) (x1 : IVec S2x800000 32) (x2 : FVec Ideal S128x128 .f32) (x3 : FVec Ideal S128 .f32)
    (x4 : FVec Ideal S128x128 .f32) (x5 : FVec Ideal S128 .f32) :
    val_main_v65 (F := Ideal) x0 x1 x2 x3 x4 x5
      = Cert.Spec.layer1 (M := 50000) (val_main_v39 (F := Ideal) x0 x1 x2 x3) (val_main_v55 (F := Ideal) x0 x1 x2 x3) x4 x5 := by
  funext i
  obtain ⟨p, q, rfl⟩ : ∃ (p : Fin 50000) (q : Fin 128), i = ix2 p q := ⟨i 0, i 1, eq_ix2 i⟩
  rw [Cert.Spec.layer1_apply, val_main_v65_apply, val_main_v64_apply, val_main_v61_apply, val_main_v63_apply, val_main_v59_apply,
    val_main_v56_apply, val_main_v58_apply, val_main_v57_apply, val_main_v60_apply, val_main_cst_11_apply, val_main_v62_apply,
    val_main_cst_12_apply, val_main_call1_v0_apply, val_main_call1_cst_apply, b58]
  simp only [l56, r56]
  rfl

theorem ref_layer2 (x0 : FVec Ideal S50000x128 .f32) (x1 : IVec S2x800000 32) (x2 : FVec Ideal S128x128 .f32) (x3 : FVec Ideal S128 .f32)
    (x4 : FVec Ideal S128x128 .f32) (x5 : FVec Ideal S128 .f32) (x6 : FVec Ideal S128x64 .f32) (x7 : FVec Ideal S64 .f32)
    (x8 : FVec Ideal S128x64 .f32) (x9 : FVec Ideal S64 .f32) :
    val_main_v94 (F := Ideal) x0 x1 x2 x3 x4 x5 x6 x7 x8 x9
      = Cert.Spec.layer2 (M := 50000) (val_main_v65 (F := Ideal) x0 x1 x2 x3 x4 x5) (val_main_v81 (F := Ideal) x0 x1 x2 x3 x4 x5) x6 x7 x8 x9 := by
  funext i
  obtain ⟨p, q, rfl⟩ : ∃ (p : Fin 50000) (q : Fin 64), i = ix2 p q := ⟨i 0, i 1, eq_ix2 i⟩
  rw [Cert.Spec.layer2_apply, val_main_v94_apply, val_main_v91_apply, val_main_v93_apply, val_main_v89_apply, val_main_v85_apply,
    val_main_v86_apply, val_main_v88_apply, val_main_v87_apply, val_main_v82_apply, val_main_v84_apply, val_main_v83_apply,
    val_main_v90_apply, val_main_cst_16_apply, val_main_v92_apply, val_main_cst_17_apply, b88, b84]
  simp only [l86, r86, l82, r82]
  rfl

/-- The reference's result stage is the specification's `out` of its arguments. -/
theorem result_eq (x0 : FVec Ideal S50000x128 .f32) (x1 : IVec S2x800000 32) (x2 : FVec Ideal S128x128 .f32) (x3 : FVec Ideal S128 .f32)
    (x4 : FVec Ideal S128x128 .f32) (x5 : FVec Ideal S128 .f32) (x6 : FVec Ideal S128x64 .f32) (x7 : FVec Ideal S64 .f32)
    (x8 : FVec Ideal S128x64 .f32) (x9 : FVec Ideal S64 .f32) :
    val_main_v95 (F := Ideal) x0 x1 x2 x3 x4 x5 x6 x7 x8 x9 = Cert.Spec.out x0 x1 x2 x3 x4 x5 x6 x7 x8 x9 := by
  unfold val_main_v95 Cert.Spec.out
  rw [ref_layer2, agg2, ref_layer1, agg1, ref_layer0, agg0]

end Cert.ReferenceIdeal.RefValue

end
-- ==== Proof.lean ====
/-
  The three-layer graph encoder against its jnp reference, over the extended reals.

  Both programs compute, per layer, the same aggregation of the node features over the edge list (scale by the
  out-degree normaliser, gather at the sources, sum at the destinations, scale by the in-degree normaliser) and then a
  row-wise affine map with a blend: `max (a W₁ + b₁) 0`, then `max (0.6 h + 0.4 (a W₂ + b₂)) 0`, then
  `0.6 (h S + s) + 0.4 (a W₃ + b₃)`. The kernel program does the row-wise part in three pallas_calls over ten blocks of
  5000 rows, with the operands rounded to bf16 on the way into the matrix product; at the extended reals the rounding
  is the identity and a product into the zero word is the plain sum, which is what the reference's `dot_general` is.

    * `Spec`      the aggregation as one function, the three layers row by row, and the whole result `out`;
    * `KPay`      each body's stored value is the layer of its loaded blocks;
    * `KRegion0…2` each call leaves the layer of the arrays it was entered with (blocks tile the rows);
    * `KHost`     the result buffer at the last boundary is `out` of the arguments;
    * `KRun`      the kernel program's run with the result buffer read;
    * `RefValue`  the reference's result is `out` of its arguments.

  The frames of the two kernel programs are the generated ones; the reference's frame is its run with the result
  dropped; nothing was rewritten by the ideal pass, so the idealization claim is trivial; no step needs the inputs
  finite.
-/
import proofs.«158194_j45294725104222_1_alg».proof.Defs
import proofs.«158194_j45294725104222_1_alg».proof.Proof.Gen.Kernel
import proofs.«158194_j45294725104222_1_alg».proof.Proof.Gen.Kernel.Frame
import proofs.«158194_j45294725104222_1_alg».proof.Proof.Gen.KernelIdeal
import proofs.«158194_j45294725104222_1_alg».proof.Proof.Gen.KernelIdeal.Frame
import proofs.«158194_j45294725104222_1_alg».proof.Proof.Gen.ReferenceIdeal
import proofs.«158194_j45294725104222_1_alg».proof.Proof.Gen.ReferenceIdeal.Run
import proofs.«158194_j45294725104222_1_alg».proof.Proof.Gen.ReferenceIdeal.Read
import proofs.«158194_j45294725104222_1_alg».proof.Proof.Gen.Pre_finite_inputs
import proofs.«158194_j45294725104222_1_alg».proof.Proof.KHost
import proofs.«158194_j45294725104222_1_alg».proof.Proof.KRun
import proofs.«158194_j45294725104222_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both results are the specification's `out` of the arguments, which agree. -/
theorem algebraic : Cert.algebraic_KernelIdeal_ReferenceIdeal := by
  intro m ρ m' ρ' _ hagree
  refine ⟨fun c => Cert.Spec.out (Cert.KernelIdeal.Host.x0 m c) (Cert.KernelIdeal.Host.e m c)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Host.result_at m ρ c), (h c).2⟩)
      (Cert.KernelIdeal.Whole.run (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v95_eq m' c).trans
      ((Cert.ReferenceIdeal.RefValue.result_eq _ _ _ _ _ _ _ _ _ _).trans ?_)
    obtain ⟨a0, a1, a2, a3, a4, a5, a6, a7, a8, a9⟩ := hagree c
    rw [a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
